-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280000 : Shape := ⟨1, ![1280000]⟩
abbrev S80000x64 : Shape := ⟨2, ![80000, 64]⟩
abbrev S64x128 : Shape := ⟨2, ![64, 128]⟩
abbrev S128x40 : Shape := ⟨2, ![128, 40]⟩
abbrev S_ : Shape := ⟨0, ![]⟩

class Facts : Prop where
  bcast_S_S1280000 : S_.BroadcastsInDim S1280000 (![] : Fin 0 → Fin S1280000.rank)
  reducesTo_S1280000_S_d0 : S1280000.ReducesTo [0] S_
  h_S_ : 0 < S_.numel
  bcast_S_S80000x64 : S_.BroadcastsInDim S80000x64 (![] : Fin 0 → Fin S80000x64.rank)
  reducesTo_S80000x64_S_d0_1 : S80000x64.ReducesTo [0, 1] S_
  bcast_S_S64x128 : S_.BroadcastsInDim S64x128 (![] : Fin 0 → Fin S64x128.rank)
  reducesTo_S64x128_S_d0_1 : S64x128.ReducesTo [0, 1] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  main_v18

def fn {F : FTy → Type} [FloatOps F] (main_arg0 : IVec S1280000 32) (main_arg1 : IVec S1280000 32) (main_arg2 : FVec F S1280000 .f32) (main_arg3 : FVec F S80000x64 .f32) (main_arg4 : FVec F S64x128 .f32) (main_arg5 : FVec F S128x40 .f32) : IVec S_ 1 :=
  let main_v0 : FVec F S1280000 .f32 := Host.absf main_arg2
  let main_cst : FVec F S_ .f32 := constant S_ .f32 0x7F800000#32
  let main_v1 : FVec F S1280000 .f32 := broadcastInDim S1280000 ![] bcast_S_S1280000 main_cst
  let main_v2 : IVec S1280000 1 := cmpf .olt main_v0 main_v1
  let main_c : IVec S_ 1 := constantI S_ 1 1#1
  let main_v3 : IVec S_ 1 := (fun x v => Host.reduce IntOp.andi x v reducesTo_S1280000_S_d0 h_S_) main_v2 main_c
  let main_v4 : FVec F S80000x64 .f32 := Host.absf main_arg3
  let main_cst_0 : FVec F S_ .f32 := constant S_ .f32 0x7F800000#32
  let main_v5 : FVec F S80000x64 .f32 := broadcastInDim S80000x64 ![] bcast_S_S80000x64 main_cst_0
  let main_v6 : IVec S80000x64 1 := cmpf .olt main_v4 main_v5
  let main_c_1 : IVec S_ 1 := constantI S_ 1 1#1
  let main_v7 : IVec S_ 1 := (fun x v => Host.reduce IntOp.andi x v reducesTo_S80000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_v13 main_v16
-- ==== Kernel.lean ====
abbrev S1280000 : Shape := ⟨1, ![1280000]⟩
abbrev S80000x64 : Shape := ⟨2, ![80000, 64]⟩
abbrev S64x128 : Shape := ⟨2, ![64, 128]⟩
abbrev S128x40 : Shape := ⟨2, ![128, 40]⟩
abbrev S_ : Shape := ⟨0, ![]⟩
abbrev S1280000x1 : Shape := ⟨2, ![1280000, 1]⟩
abbrev S1280000x64 : Shape := ⟨2, ![1280000, 64]⟩
abbrev S80000x128 : Shape := ⟨2, ![80000, 128]⟩
abbrev S4000x64 : Shape := ⟨2, ![4000, 64]⟩
abbrev S4000x128 : Shape := ⟨2, ![4000, 128]⟩
abbrev S1280000x128 : Shape := ⟨2, ![1280000, 128]⟩
abbrev S80000x40 : Shape := ⟨2, ![80000, 40]⟩
abbrev S4000x40 : Shape := ⟨2, ![4000, 40]⟩

abbrev nBuf : Space → Nat
  | .hbm => 40
  | .vmem => 10
  | .smem => 0
  | _ => 0

abbrev bufTy : (tb : Table) → Fin (tcTables nBuf tb) → BufTy
  | .hbm, ⟨0, _⟩ => ⟨S1280000, .i32⟩
  | .hbm, ⟨1, _⟩ => ⟨S1280000, .i32⟩
  | .hbm, ⟨2, _⟩ => ⟨S1280000, .f32⟩
  | .hbm, ⟨3, _⟩ => ⟨S80000x64, .f32⟩
  | .hbm, ⟨4, _⟩ => ⟨S64x128, .f32⟩
  | .hbm, ⟨5, _⟩ => ⟨S128x40, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x1, .f32⟩
  | .hbm, ⟨16, _⟩ => ⟨S1280000x64, .f32⟩
  | .hbm, ⟨17, _⟩ => ⟨S1280000x64, .f32⟩
  | .hbm, ⟨18, _⟩ => ⟨S_, .f32⟩
  | .hbm, ⟨19, _⟩ => ⟨S80000x64, .f32⟩
  | .hbm, ⟨20, _⟩ => ⟨S1280000x1, .i32⟩
  | .hbm, ⟨21, _⟩ => ⟨S80000x64, .f32⟩
  | .hbm, ⟨22, _⟩ => ⟨S80000x128, .f32⟩
  | .hbm, ⟨23, _⟩ => ⟨S_, .i32⟩
  | .hbm, ⟨24, _⟩ => ⟨S1280000, .i32⟩
  | .hbm, ⟨25, _⟩ => ⟨S1280000, .i1⟩
  | .hbm, ⟨26, _⟩ => ⟨S_, .i32⟩
  | .hbm, ⟨27, _⟩ => ⟨S1280000, .i32⟩
  | .hbm, ⟨28, _⟩ => ⟨S1280000, .i32⟩
  | .hbm, ⟨29, _⟩ => ⟨S1280000, .i32⟩
  | .hbm, ⟨30, _⟩ => ⟨S1280000x1, .i32⟩
  | .hbm, ⟨31, _⟩ => ⟨S1280000x128, .f32⟩
  | .hbm, ⟨32, _⟩ => ⟨S1280000x1, .f32⟩
  | .hbm, ⟨33, _⟩ => ⟨S1280000x128, .f32⟩
  | .hbm, ⟨34, _⟩ => ⟨S1280000x128, .f32⟩
  | .hbm, ⟨35, _⟩ => ⟨S_, .f32⟩
  | .hbm, ⟨36, _⟩ => ⟨S80000x128, .f32⟩
  | .hbm, ⟨37, _⟩ => ⟨S1280000x1, .i32⟩
  | .hbm, ⟨38, _⟩ => ⟨S80000x128, .f32⟩
  | .hbm, ⟨39, _⟩ => ⟨S80000x40, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x40, .f32⟩
  | .local _ .vmem, ⟨8, _⟩ => ⟨S4000x40, .f32⟩
  | .local _ .vmem, ⟨9, _⟩ => ⟨S4000x40, .f32⟩
  | _, _ => ⟨S1280000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S4000x128_S4000x128_0_0 : ∀ a, (![0, 0] : Fin 2 → Nat) a + S4000x128.size a ≤ S4000x128.size a
  h_S4000x128 : 0 < S4000x128.numel
  bcast_S1280000x1_S1280000x128_0_1 : S1280000x1.BroadcastsInDim S1280000x128 (![0, 1] : Fin 2 → Fin S1280000x128.rank)
  bcast_S_S80000x128 : S_.BroadcastsInDim S80000x128 (![] : Fin 0 → Fin S80000x128.rank)
  shapeCasts_S4000x128_S4000x128 : S4000x128.ShapeCasts S4000x128
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S4000x64_S64x128_S4000x128_1_0_0_1_n_n_wf : DotDims.WF S4000x64 S64x128 S4000x128 [1] [0] [0] [1] [] []
  gather_S80000x128_S1280000x1_S1280000x128_1_0_n_n_0_1_1128_wf : GatherDims.WF S80000x128 S1280000x1 S1280000x128 [1] [0] [] [0] [] 1 ![1, 128]
  scatter_S80000x128_S1280000x1_S1280000x128_1_0_0_1_wf : ScatterDims.WF S80000x128 S1280000x1 S1280000x128 [1] [0] [0] 1
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S80000x64.size a
  hwx0_0 : ∀ i : grid0.Coords, EltTy.bits .f32 = 32 ∨ (Rect.block (s := S80000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S80000x128.size a
  hwx0_2 : ∀ i : grid0.Coords, EltTy.bits .f32 = 32 ∨ (Rect.block (s := S80000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S80000x128.size a
  hwx1_0 : ∀ i : grid1.Coords, EltTy.bits .f32 = 32 ∨ (Rect.block (s := S80000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S80000x40.size a
  hwx1_2 : ∀ i : grid1.Coords, EltTy.bits .f32 = 32 ∨ (Rect.block (s := S80000x40) S4000x40.size (cc1_transform_2 i) (hinb1_2 i)).WholeWords (EltTy.packing .f32)

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S80000x128_S1280000x1_S1280000x128_1_0_n_n_0_1_1128 : GatherDims S80000x128 S1280000x1 S1280000x128 where
  offsetDims := [1]
  collapsedSliceDims := [0]
  operandBatchingDims := []
  startIndicesBatchingDims := []
  startIndexMap := [0]
  indexVectorDim := 1
  sliceSizes := ![1, 128]
  wf := gather_S80000x128_S1280000x1_S1280000x128_1_0_n_n_0_1_1128_wf
def scatter_S80000x128_S1280000x1_S1280000x128_1_0_0_1 : ScatterDims S80000x128 S1280000x1 S1280000x128 where
  updateWindowDims := [1]
  insertedWindowDims := [0]
  scatterDimsToOperandDims := [0]
  indexVectorDim := 1
  wf := scatter_S80000x128_S1280000x1_S1280000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v12) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1280000 : Shape := ⟨1, ![1280000]⟩
abbrev S80000x64 : Shape := ⟨2, ![80000, 64]⟩
abbrev S64x128 : Shape := ⟨2, ![64, 128]⟩
abbrev S128x40 : Shape := ⟨2, ![128, 40]⟩
abbrev S_ : Shape := ⟨0, ![]⟩
abbrev S1280000x1 : Shape := ⟨2, ![1280000, 1]⟩
abbrev S1280000x64 : Shape := ⟨2, ![1280000, 64]⟩
abbrev S80000x128 : Shape := ⟨2, ![80000, 128]⟩
abbrev S1280000x128 : Shape := ⟨2, ![1280000, 128]⟩
abbrev S80000x40 : Shape := ⟨2, ![80000, 40]⟩

abbrev nBuf : Space → Nat
  | .hbm => 43
  | .vmem => 0
  | .smem => 0
  | _ => 0

abbrev bufTy : (tb : Table) → Fin (tcTables nBuf tb) → BufTy
  | .hbm, ⟨0, _⟩ => ⟨S1280000, .i32⟩
  | .hbm, ⟨1, _⟩ => ⟨S1280000, .i32⟩
  | .hbm, ⟨2, _⟩ => ⟨S1280000, .f32⟩
  | .hbm, ⟨3, _⟩ => ⟨S80000x64, .f32⟩
  | .hbm, ⟨4, _⟩ => ⟨S64x128, .f32⟩
  | .hbm, ⟨5, _⟩ => ⟨S128x40, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x1, .f32⟩
  | .hbm, ⟨16, _⟩ => ⟨S1280000x64, .f32⟩
  | .hbm, ⟨17, _⟩ => ⟨S1280000x64, .f32⟩
  | .hbm, ⟨18, _⟩ => ⟨S_, .f32⟩
  | .hbm, ⟨19, _⟩ => ⟨S80000x64, .f32⟩
  | .hbm, ⟨20, _⟩ => ⟨S1280000x1, .i32⟩
  | .hbm, ⟨21, _⟩ => ⟨S80000x64, .f32⟩
  | .hbm, ⟨22, _⟩ => ⟨S80000x128, .f32⟩
  | .hbm, ⟨23, _⟩ => ⟨S_, .f32⟩
  | .hbm, ⟨24, _⟩ => ⟨S80000x128, .f32⟩
  | .hbm, ⟨25, _⟩ => ⟨S80000x128, .f32⟩
  | .hbm, ⟨26, _⟩ => ⟨S_, .i32⟩
  | .hbm, ⟨27, _⟩ => ⟨S1280000, .i32⟩
  | .hbm, ⟨28, _⟩ => ⟨S1280000, .i1⟩
  | .hbm, ⟨29, _⟩ => ⟨S_, .i32⟩
  | .hbm, ⟨30, _⟩ => ⟨S1280000, .i32⟩
  | .hbm, ⟨31, _⟩ => ⟨S1280000, .i32⟩
  | .hbm, ⟨32, _⟩ => ⟨S1280000, .i32⟩
  | .hbm, ⟨33, _⟩ => ⟨S1280000x1, .i32⟩
  | .hbm, ⟨34, _⟩ => ⟨S1280000x128, .f32⟩
  | .hbm, ⟨35, _⟩ => ⟨S1280000x1, .f32⟩
  | .hbm, ⟨36, _⟩ => ⟨S1280000x128, .f32⟩
  | .hbm, ⟨37, _⟩ => ⟨S1280000x128, .f32⟩
  | .hbm, ⟨38, _⟩ => ⟨S_, .f32⟩
  | .hbm, ⟨39, _⟩ => ⟨S80000x128, .f32⟩
  | .hbm, ⟨40, _⟩ => ⟨S1280000x1, .i32⟩
  | .hbm, ⟨41, _⟩ => ⟨S80000x128, .f32⟩
  | .hbm, ⟨42, _⟩ => ⟨S80000x40, .f32⟩
  | _, _ => ⟨S1280000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  bcast_S_S80000x128 : S_.BroadcastsInDim S80000x128 (![] : Fin 0 → Fin S80000x128.rank)
  bcast_S1280000x1_S1280000x128_0_1 : S1280000x1.BroadcastsInDim S1280000x128 (![0, 1] : Fin 2 → Fin S1280000x128.rank)
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x128_S80000x128_1_0_0_1_n_n_wf : DotDims.WF S80000x64 S64x128 S80000x128 [1] [0] [0] [1] [] []
  gather_S80000x128_S1280000x1_S1280000x128_1_0_n_n_0_1_1128_wf : GatherDims.WF S80000x128 S1280000x1 S1280000x128 [1] [0] [] [0] [] 1 ![1, 128]
  scatter_S80000x128_S1280000x1_S1280000x128_1_0_0_1_wf : ScatterDims.WF S80000x128 S1280000x1 S1280000x128 [1] [0] [0] 1
  dot_S80000x128_S128x40_S80000x40_1_0_0_1_n_n_wf : DotDims.WF S80000x128 S128x40 S80000x40 [1] [0] [0] [1] [] []

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x128_S80000x128_1_0_0_1_n_n : DotDims S80000x64 S64x128 S80000x128 where
  lhsContracting := [1]
  rhsContracting := [0]
  lhsNonContracting := [0]
  rhsNonContracting := [1]
  lhsBatch := []
  rhsBatch := []
  wf := dot_S80000x64_S64x128_S80000x128_1_0_0_1_n_n_wf
def gather_S80000x128_S1280000x1_S1280000x128_1_0_n_n_0_1_1128 : GatherDims S80000x128 S1280000x1 S1280000x128 where
  offsetDims := [1]
  collapsedSliceDims := [0]
  operandBatchingDims := []
  startIndicesBatchingDims := []
  startIndexMap := [0]
  indexVectorDim := 1
  sliceSizes := ![1, 128]
  wf := gather_S80000x128_S1280000x1_S1280000x128_1_0_n_n_0_1_1128_wf
def scatter_S80000x128_S1280000x1_S1280000x128_1_0_0_1 : ScatterDims S80000x128 S1280000x1 S1280000x128 where
  updateWindowDims := [1]
  insertedWindowDims := [0]
  scatterDimsToOperandDims := [0]
  indexVectorDim := 1
  wf := scatter_S80000x128_S1280000x1_S1280000x128_1_0_0_1_wf
def dot_S80000x128_S128x40_S80000x40_1_0_0_1_n_n : DotDims S80000x128 S128x40 S80000x40 where
  lhsContracting := [1]
  rhsContracting := [0]
  lhsNonContracting := [0]
  rhsNonContracting := [1]
  lhsBatch := []
  rhsBatch := []
  wf := dot_S80000x128_S128x40_S80000x40_1_0_0_1_n_n_wf

class Facts : Prop extends Facts₀ where

variable [Facts]
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.DenseRows.lean ====
/-
  A tall matrix times a small one, formed a band of rows at a time, over the extended reals.

  Entry (r, q) of the product of h (M rows, K columns) with w (K rows, N columns) is the sum over k of h (r, k) * w (k, q):
  of h it reads row r and nothing else. So when the rows of h are cut into bands, and a band's product with the same w is
  formed from the band alone, entry (p, q) of the band's product is entry (r, q) of the whole product, r being the row of h
  that the band holds as its row p. No sum is rearranged and no factor is moved, so nothing is asked of the entries: the
  statement holds at the infinities too.

  The band's product is taken in the form a kernel computes it in: both operands cast to a narrower float format, which over
  the extended reals changes no value, and the products accumulated into a zero matrix. The whole product is taken in the form
  of the host's contraction, which has no accumulator.
-/
import Idealize.ShloMosaic.Lib.ValueIdx
import Idealize.ShloMosaic.Lib.StackMember
import Idealize.ShloMosaic.PureOps.Ideal.Laws
import proofs.«138890_j11450382811785_1_alg».proof.Proof.LibPlainMatmul

noncomputable section

namespace Cert.DenseRows

open Idealize.ShloMosaic Idealize.ShloMosaic.ValueIdx

variable {M B K N : ℕ}

/-- Entry (r, q) of the whole product is the sum over k of h (r, k) * w (k, q). -/
theorem whole_entry (prec : Option ContractPrecision) (h : FVec Ideal ⟨2, ![M, K]⟩ .f32) (w : FVec Ideal ⟨2, ![K, N]⟩ .f32)
    (r : Fin M) (q : Fin N) :
    Host.dotGeneral (DotDims.plain M K N) prec h w (ix2 r q) = ∑ k : Fin K, h (ix2 r k) * w (ix2 k q) :=
  StackMember.dotGeneral_plain_apply prec h w r q

/-- Entry (p, q) of a band's product, the operands cast to a narrower format first, is the sum over k of a (p, k) * w (k, q):
    the cast is the identity on the extended reals and the accumulator contributes zero. -/
theorem band_entry (prec : Option ContractPrecision) {ψ : FTy} (hψ : ψ.bits < FTy.f32.bits)
    (a : FVec Ideal ⟨2, ![B, K]⟩ .f32) (w : FVec Ideal ⟨2, ![K, N]⟩ .f32) (p : Fin B) (q : Fin N) :
    matmul (DotDims.plain B K N) prec (truncf ψ a hψ) (truncf ψ w hψ) (constant ⟨2, ![B, N]⟩ .f32 0x00000000#32) (ix2 p q)
      = ∑ k : Fin K, a (ix2 p k) * w (ix2 k q) :=
  PlainMatmul.apply prec (truncf ψ a hψ) (truncf ψ w hψ) p q

/-- A band's product at (p, q) is the whole product at (r, q), when row p of the band is row r of h and the band is
    multiplied by the same small matrix. -/
theorem band_eq_whole (prec : Option ContractPrecision) {ψ : FTy} (hψ : ψ.bits < FTy.f32.bits)
    (h : FVec Ideal ⟨2, ![M, K]⟩ .f32) (w : FVec Ideal ⟨2, ![K, N]⟩ .f32)
    (a : FVec Ideal ⟨2, ![B, K]⟩ .f32) (w' : FVec Ideal ⟨2, ![K, N]⟩ .f32) (p : Fin B) (r : Fin M) (q : Fin N)
    (ha : ∀ k : Fin K, a (ix2 p k) = h (ix2 r k)) (hw : ∀ k : Fin K, w' (ix2 k q) = w (ix2 k q)) :
    matmul (DotDims.plain B K N) prec (truncf ψ a hψ) (truncf ψ w' hψ) (constant ⟨2, ![B, N]⟩ .f32 0x00000000#32) (ix2 p q)
      = Host.dotGeneral (DotDims.plain M K N) prec h w (ix2 r q) := by
  rw [band_entry, whole_entry]
  exact Finset.sum_congr rfl fun k _ => by rw [ha k, hw k]

end Cert.DenseRows

end
-- ==== Proof.Region0.lean ====
/-
  The first dense layer: what the first pipelined call leaves in its result array.

  The call walks the 80000 rows of the aggregated features in 20 bands of 4000 rows. At band t it multiplies the band (cast to a
  narrower float format, the identity over the extended reals) by the whole 64 x 128 weight matrix into a zero accumulator, clips
  the product at zero and writes it back as band t of the result. Entry (p, q) of band t's product reads only row p of the band,
  which is row 4000 t + p of the features, so it is entry (4000 t + p, q) of the product of the whole feature matrix with the
  weights; clipping is entrywise. The 20 bands tile the result, so the result array ends holding the clipped whole product.
-/
import proofs.«138890_j11450382811785_1_alg».proof.Proof.Gen.KernelIdeal.Frame
import proofs.«138890_j11450382811785_1_alg».proof.Proof.DenseRows
import Idealize.ShloMosaic.Lib.Pipeline.Value

set_option maxRecDepth 16384

noncomputable section

namespace Cert.KernelIdeal.FirstLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The hidden layer as one function of the aggregated features and the first weight matrix: their product, clipped at zero. -/
def hidden (h : FVec Ideal S80000x64 .f32) (w : FVec Ideal S64x128 .f32) : FVec Ideal S80000x128 .f32 :=
  maximumf (Host.dotGeneral (DotDims.plain 80000 64 128) none h w) (broadcast S80000x128 (Scalar.ofBits .f32 0x00000000#32))

theorem hz : (![0, 0] : Fin 2 → Nat) = fun _ => 0 := funext fun a => by fin_cases a <;> rfl

/-- Row p of band t is row 4000 t + p of the whole array. -/
def bandRow (t : Fin cfg0.N) (p : Fin 4000) : Fin 80000 :=
  ⟨4000 * t.val + p.val, by have ht : t.val < 20 := t.isLt; have hp := p.isLt; omega⟩

/-- The band's clipped product at (p, q) is the clipped whole product at (r, q), when row p of the band is row r of the
    features and the band is multiplied by the same weights. -/
theorem band_eq_hidden (x0 : Vec Ideal S4000x64 .f32) (x1 : Vec Ideal S64x128 .f32)
    (h : FVec Ideal S80000x64 .f32) (w : FVec Ideal S64x128 .f32) (p : Fin 4000) (r : Fin 80000) (q : Fin 128)
    (hx0 : ∀ k : Fin 64, x0 (ix2 p k) = h (ix2 r k)) (hx1 : ∀ k : Fin 64, x1 (ix2 k q) = w (ix2 k q)) :
    k0_pay1 x0 x1 (ix2 p q) = hidden h w (ix2 r q) := by
  unfold k0_pay1 hidden
  show max (matmul dot_S4000x64_S64x128_S4000x128_1_0_0_1_n_n none
        (truncf .bf16 (shapeCast S4000x64 x0 shapeCasts_S4000x64_S4000x64) bitsLt_bf16_f32) (truncf .bf16 x1 bitsLt_bf16_f32)
        (constant S4000x128 .f32 0x00000000#32) (ix2 p q)) (Ideal.ofBits .f32 0x00000000#32)
      = max (Host.dotGeneral (DotDims.plain 80000 64 128) none h w (ix2 r q)) (Ideal.ofBits .f32 0x00000000#32)
  rw [shapeCast_self]
  exact congrArg (max · _) (DenseRows.band_eq_whole none bitsLt_bf16_f32 h w x0 x1 p r q hx0 hx1)

/-- The printed index maps over the grid: the features' and the result's band index is the grid point, every other block
    index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is band t of the hidden layer of the arrays the call finds. -/
theorem flushed0 (c : Dev nD) (t : Fin cfg0.N) :
    (dat0 V c).flushed 2 t = ((cfg0.win 2).blk t).view.read (Elt Ideal) (hidden (V c main_v12) (V c main_arg4)) := by
  show (cfg0.win 2).cut (grid0.coords t) ((dat0 V c).after 2 t) = _
  rw [after0_2]
  unfold out0_2
  rw [View.canon_unit_zero hz]
  simp only [View.ld_unit_zero (S := S4000x64) hz, View.ld_unit_zero (S := S64x128) hz]
  funext j
  obtain ⟨p, q, rfl⟩ : ∃ (p : Fin 4000) (q : Fin 128), j = ix2 p q := ⟨j 0, j 1, eq_ix2 j⟩
  show k0_pay1 (iblk0 V c 0 t) (iblk0 V c 1 t) (ix2 p q)
    = hidden (V c main_v12) (V c main_arg4) (((cfg0.win 2).blk t).view.emb (ix2 p q))
  obtain ⟨e00, e01, e10, e11, e20, e21⟩ := idx0 t
  have hemb : ((cfg0.win 2).blk t).view.emb (ix2 p q) = ix2 (bandRow t p) q := by
    funext a; apply Fin.ext
    match a with
    | ⟨0, _⟩ => show win0_2.index t (0 : Fin 2) * 4000 + 1 * p.val = 4000 * t.val + p.val; omega
    | ⟨1, _⟩ => show win0_2.index t (1 : Fin 2) * 128 + 1 * q.val = q.val; omega
  rw [hemb]
  refine band_eq_hidden (iblk0 V c 0 t) (iblk0 V c 1 t) (V c main_v12) (V c main_arg4) p (bandRow t p) q (fun k => ?_) (fun k => ?_)
  · show V c main_v12 (((cfg0.win 0).blk t).view.emb (ix2 p k)) = V c main_v12 (ix2 (bandRow t p) k)
    refine congrArg _ (funext fun a => Fin.ext ?_)
    match a with
    | ⟨0, _⟩ => show win0_0.index t (0 : Fin 2) * 4000 + 1 * p.val = 4000 * t.val + p.val; omega
    | ⟨1, _⟩ => show win0_0.index t (1 : Fin 2) * 64 + 1 * k.val = k.val; omega
  · show V c main_arg4 (((cfg0.win 1).blk t).view.emb (ix2 k q)) = V c main_arg4 (ix2 k q)
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * q.val = q.val; omega

/-- An index of the result array is in point t's band iff each coordinate is in the band's range on its axis. -/
theorem mem_blk0 (t : Fin cfg0.N) (i : S80000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v13).slice (win0_2.rect t)).set ↔ _
  rw [View.set_slice_whole, Rect.mem_set_unit]
  exact Iff.rfl

/-- The 20 bands tile the result array: row r lies in band r / 4000. -/
theorem cover0 (i : S80000x128.Idx) : ∃ t : Fin cfg0.N, (cfg0.win 2).flush t = true ∧ i ∈ ((cfg0.win 2).blk t).view.set := by
  have hi0 : (i 0).val < 80000 := (i 0).isLt
  have hi1 : (i 1).val < 128 := (i 1).isLt
  have hlt : (i 0).val / 4000 < cfg0.N := by show (i 0).val / 4000 < 20; omega
  refine ⟨⟨(i 0).val / 4000, hlt⟩, flush0_2 _, ?_⟩
  obtain ⟨-, -, -, -, e20, e21⟩ := idx0 ⟨(i 0).val / 4000, hlt⟩
  rw [mem_blk0]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e20]; show (i 0).val / 4000 * 4000 ≤ (i 0).val ∧ (i 0).val < (i 0).val / 4000 * 4000 + 4000; omega
  | ⟨1, _⟩ =>
    show win0_2.index ⟨(i 0).val / 4000, hlt⟩ (1 : Fin 2) * 128 ≤ (i 1).val
      ∧ (i 1).val < win0_2.index ⟨(i 0).val / 4000, hlt⟩ (1 : Fin 2) * 128 + 128
    rw [e21]; omega

/-- The result array after the call: the hidden layer of the features and weights the call finds. -/
theorem final0 (c : Dev nD) : (dat0 V c).arrAt 2 cfg0.N = hidden (V c main_v12) (V c main_arg4) :=
  (dat0 V c).arrAt_eq_of_cover 2 (hidden (V c main_v12) (V c main_arg4)) (fun t _ => flushed0 V c t) (cover0)

end Cert.KernelIdeal.FirstLayer

end
-- ==== Proof.Region1.lean ====
/-
  The second dense layer: what the second pipelined call leaves in its result array.

  The call walks the 80000 rows of the aggregated hidden features in 20 bands of 4000 rows. At band t it multiplies the band (cast
  to a narrower float format, the identity over the extended reals) by the whole 128 x 40 weight matrix into a zero accumulator
  and writes the product back as band t of the result. Entry (p, q) of band t's product reads only row p of the band, which is
  row 4000 t + p of the features, so it is entry (4000 t + p, q) of the product of the whole feature matrix with the weights.
  The 20 bands tile the result, so the result array ends holding the whole product.
-/
import proofs.«138890_j11450382811785_1_alg».proof.Proof.Gen.KernelIdeal.Frame
import proofs.«138890_j11450382811785_1_alg».proof.Proof.DenseRows
import Idealize.ShloMosaic.Lib.Pipeline.Value

set_option maxRecDepth 16384

noncomputable section

namespace Cert.KernelIdeal.SecondLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The output layer as one function of the aggregated hidden features and the second weight matrix: their product. -/
def logits (h : FVec Ideal S80000x128 .f32) (w : FVec Ideal S128x40 .f32) : FVec Ideal S80000x40 .f32 :=
  Host.dotGeneral (DotDims.plain 80000 128 40) none h w

theorem hz : (![0, 0] : Fin 2 → Nat) = fun _ => 0 := funext fun a => by fin_cases a <;> rfl

/-- Row p of band t is row 4000 t + p of the whole array. -/
def bandRow (t : Fin cfg1.N) (p : Fin 4000) : Fin 80000 :=
  ⟨4000 * t.val + p.val, by have ht : t.val < 20 := t.isLt; have hp := p.isLt; omega⟩

/-- The band's product at (p, q) is the whole product at (r, q), when row p of the band is row r of the features and the
    band is multiplied by the same weights. -/
theorem band_eq_logits (x0 : Vec Ideal S4000x128 .f32) (x1 : Vec Ideal S128x40 .f32)
    (h : FVec Ideal S80000x128 .f32) (w : FVec Ideal S128x40 .f32) (p : Fin 4000) (r : Fin 80000) (q : Fin 40)
    (hx0 : ∀ k : Fin 128, x0 (ix2 p k) = h (ix2 r k)) (hx1 : ∀ k : Fin 128, x1 (ix2 k q) = w (ix2 k q)) :
    k1_pay1 x0 x1 (ix2 p q) = logits h w (ix2 r q) := by
  unfold k1_pay1 logits
  show matmul dot_S4000x128_S128x40_S4000x40_1_0_0_1_n_n none
        (truncf .bf16 (shapeCast S4000x128 x0 shapeCasts_S4000x128_S4000x128) bitsLt_bf16_f32) (truncf .bf16 x1 bitsLt_bf16_f32)
        (constant S4000x40 .f32 0x00000000#32) (ix2 p q)
      = Host.dotGeneral (DotDims.plain 80000 128 40) none h w (ix2 r q)
  rw [shapeCast_self]
  exact DenseRows.band_eq_whole none bitsLt_bf16_f32 h w x0 x1 p r q hx0 hx1

/-- The printed index maps over the grid: the features' and the result's band index is the grid point, every other block
    index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is band t of the output layer of the arrays the call finds. -/
theorem flushed1 (c : Dev nD) (t : Fin cfg1.N) :
    (dat1 V c).flushed 2 t = ((cfg1.win 2).blk t).view.read (Elt Ideal) (logits (V c main_v26) (V c main_arg5)) := by
  show (cfg1.win 2).cut (grid1.coords t) ((dat1 V c).after 2 t) = _
  rw [after1_2]
  unfold out1_2
  rw [View.canon_unit_zero hz]
  simp only [View.ld_unit_zero (S := S4000x128) hz, View.ld_unit_zero (S := S128x40) hz]
  funext j
  obtain ⟨p, q, rfl⟩ : ∃ (p : Fin 4000) (q : Fin 40), j = ix2 p q := ⟨j 0, j 1, eq_ix2 j⟩
  show k1_pay1 (iblk1 V c 0 t) (iblk1 V c 1 t) (ix2 p q)
    = logits (V c main_v26) (V c main_arg5) (((cfg1.win 2).blk t).view.emb (ix2 p q))
  obtain ⟨e00, e01, e10, e11, e20, e21⟩ := idx1 t
  have hemb : ((cfg1.win 2).blk t).view.emb (ix2 p q) = ix2 (bandRow t p) q := by
    funext a; apply Fin.ext
    match a with
    | ⟨0, _⟩ => show win1_2.index t (0 : Fin 2) * 4000 + 1 * p.val = 4000 * t.val + p.val; omega
    | ⟨1, _⟩ => show win1_2.index t (1 : Fin 2) * 40 + 1 * q.val = q.val; omega
  rw [hemb]
  refine band_eq_logits (iblk1 V c 0 t) (iblk1 V c 1 t) (V c main_v26) (V c main_arg5) p (bandRow t p) q (fun k => ?_) (fun k => ?_)
  · show V c main_v26 (((cfg1.win 0).blk t).view.emb (ix2 p k)) = V c main_v26 (ix2 (bandRow t p) k)
    refine congrArg _ (funext fun a => Fin.ext ?_)
    match a with
    | ⟨0, _⟩ => show win1_0.index t (0 : Fin 2) * 4000 + 1 * p.val = 4000 * t.val + p.val; omega
    | ⟨1, _⟩ => show win1_0.index t (1 : Fin 2) * 128 + 1 * k.val = k.val; omega
  · show V c main_arg5 (((cfg1.win 1).blk t).view.emb (ix2 k q)) = V c main_arg5 (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 40 + 1 * q.val = q.val; omega

/-- An index of the result array is in point t's band iff each coordinate is in the band's range on its axis. -/
theorem mem_blk1 (t : Fin cfg1.N) (i : S80000x40.Idx) :
    i ∈ ((cfg1.win 2).blk t).view.set ↔ ∀ a : Fin 2, win1_2.index t a * S4000x40.size a ≤ (i a).val
      ∧ (i a).val < win1_2.index t a * S4000x40.size a + S4000x40.size a := by
  show i ∈ ((View.whole main_v27).slice (win1_2.rect t)).set ↔ _
  rw [View.set_slice_whole, Rect.mem_set_unit]
  exact Iff.rfl

/-- The 20 bands tile the result array: row r lies in band r / 4000. -/
theorem cover1 (i : S80000x40.Idx) : ∃ t : Fin cfg1.N, (cfg1.win 2).flush t = true ∧ i ∈ ((cfg1.win 2).blk t).view.set := by
  have hi0 : (i 0).val < 80000 := (i 0).isLt
  have hi1 : (i 1).val < 40 := (i 1).isLt
  have hlt : (i 0).val / 4000 < cfg1.N := by show (i 0).val / 4000 < 20; omega
  refine ⟨⟨(i 0).val / 4000, hlt⟩, flush1_2 _, ?_⟩
  obtain ⟨-, -, -, -, e20, e21⟩ := idx1 ⟨(i 0).val / 4000, hlt⟩
  rw [mem_blk1]
  intro a
  match a with
  | ⟨0, _⟩ =>
    show win1_2.index ⟨(i 0).val / 4000, hlt⟩ (0 : Fin 2) * 4000 ≤ (i 0).val
      ∧ (i 0).val < win1_2.index ⟨(i 0).val / 4000, hlt⟩ (0 : Fin 2) * 4000 + 4000
    rw [e20]; show (i 0).val / 4000 * 4000 ≤ (i 0).val ∧ (i 0).val < (i 0).val / 4000 * 4000 + 4000; omega
  | ⟨1, _⟩ =>
    show win1_2.index ⟨(i 0).val / 4000, hlt⟩ (1 : Fin 2) * 40 ≤ (i 1).val
      ∧ (i 1).val < win1_2.index ⟨(i 0).val / 4000, hlt⟩ (1 : Fin 2) * 40 + 40
    rw [e21]; omega

/-- The result array after the call: the output layer of the features and weights the call finds. -/
theorem final1 (c : Dev nD) : (dat1 V c).arrAt 2 cfg1.N = logits (V c main_v26) (V c main_arg5) :=
  (dat1 V c).arrAt_eq_of_cover 2 (logits (V c main_v26) (V c main_arg5)) (fun t _ => flushed1 V c t) (cover1)

end Cert.KernelIdeal.SecondLayer

end
-- ==== Proof.KernelValue.lean ====
/-
  The kernel program's result as one function of its six arguments.

  The program is four stretches: host operations that aggregate the node features over the edges; a pipelined call that forms
  the hidden layer; host operations that aggregate the hidden layer over the same edges; a pipelined call that forms the output
  layer. Each stretch is entered from the buffer contents the one before left. Read backwards from the result array: the second
  call leaves the product of its entry features with the second weights; those entry features are the aggregate of what the
  first call left; the first call left the clipped product of its entry features with the first weights; and those are the
  aggregate of the node features. No stretch writes an argument array, so each argument is read at its launch contents
  throughout.

  An aggregation is carried as one function (aggregate64, aggregate128) and is never opened: the reference applies the very same
  host operations.
-/
import proofs.«138890_j11450382811785_1_alg».proof.Proof.KernelRun
import proofs.«138890_j11450382811785_1_alg».proof.Proof.Region0
import proofs.«138890_j11450382811785_1_alg».proof.Proof.Region1
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-- The edge endpoints read as row numbers: a negative number counts from the end. -/
def wrap (dst : IVec S1280000 32) : IVec S1280000 32 :=
  select (cmpi .slt dst (broadcastInDim S1280000 ![] bcast_S_S1280000 (constantI S_ 32 0#32)))
    (addi dst (broadcastInDim S1280000 ![] bcast_S_S1280000 (constantI S_ 32 80000#32))) dst

/-- Aggregation of 64-wide features over the edges: every edge takes the row of x its end names, scales it by the edge's
    value, and the scaled rows are summed into the row the edge's start names, from zero. -/
def aggregate64 (src dst : IVec S1280000 32) (vals : FVec Ideal S1280000 .f32) (x : FVec Ideal S80000x64 .f32) :
    FVec Ideal S80000x64 .f32 :=
  Host.scatterAdd scatter_S80000x64_S1280000x1_S1280000x64_1_0_0_1
    (broadcastInDim S80000x64 ![] bcast_S_S80000x64 (constant S_ .f32 0x00000000#32))
    (broadcastInDim S1280000x1 ![0] bcast_S1280000_S1280000x1_0 src)
    (mulf (Host.gather gather_S80000x64_S1280000x1_S1280000x64_1_0_n_n_0_1_164 x
        (broadcastInDim S1280000x1 ![0] bcast_S1280000_S1280000x1_0 (wrap dst)))
      (broadcastInDim S1280000x64 ![0, 1] bcast_S1280000x1_S1280000x64_0_1
        (broadcastInDim S1280000x1 ![0] bcast_S1280000_S1280000x1_0 vals)))

/-- The same aggregation of 128-wide features. -/
def aggregate128 (src dst : IVec S1280000 32) (vals : FVec Ideal S1280000 .f32) (x : FVec Ideal S80000x128 .f32) :
    FVec Ideal S80000x128 .f32 :=
  Host.scatterAdd scatter_S80000x128_S1280000x1_S1280000x128_1_0_0_1
    (broadcastInDim S80000x128 ![] bcast_S_S80000x128 (constant S_ .f32 0x00000000#32))
    (broadcastInDim S1280000x1 ![0] bcast_S1280000_S1280000x1_0 src)
    (mulf (Host.gather gather_S80000x128_S1280000x1_S1280000x128_1_0_n_n_0_1_1128 x
        (broadcastInDim S1280000x1 ![0] bcast_S1280000_S1280000x1_0 (wrap dst)))
      (broadcastInDim S1280000x128 ![0, 1] bcast_S1280000x1_S1280000x128_0_1
        (broadcastInDim S1280000x1 ![0] bcast_S1280000_S1280000x1_0 vals)))

/-- The whole network: aggregate, hidden layer, aggregate, output layer. -/
def network (src dst : IVec S1280000 32) (vals : FVec Ideal S1280000 .f32) (x : FVec Ideal S80000x64 .f32)
    (w1 : FVec Ideal S64x128 .f32) (w2 : FVec Ideal S128x40 .f32) : FVec Ideal S80000x40 .f32 :=
  SecondLayer.logits (aggregate128 src dst vals (FirstLayer.hidden (aggregate64 src dst vals x) w1)) w2

variable (m : (ℓ : Loc nD τ sig) → Buf (Elt Ideal) ℓ) (ρ : Dev nD → PrngReg)

/-! ## The first call's entry contents -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]; after_results_simp
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]; after_results_simp
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results_simp
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]; after_results_simp
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results_simp

/-- The first call's feature window holds the aggregate of the node features. -/
theorem W1_features (c : Dev nD) : W1 m ρ c (Proc.devRef .tc main_v12)
    = aggregate64 (m ((c : Thread nD τ).loc main_arg0)) (m ((c : Thread nD τ).loc main_arg1))
        (m ((c : Thread nD τ).loc main_arg2)) (m ((c : Thread nD τ).loc main_arg3)) := by
  show StableHlo.after hostOps0 (W0 m ρ c) (Proc.devRef .tc main_v12) = _
  dsimp only [hostOps0]; after_results_simp; rfl

/-! ## The first call's exit contents -/

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)

/-- The first call leaves the hidden layer of the aggregated node features in its result array. -/
theorem W2_hidden (c : Dev nD) : W2 m ρ c (Proc.devRef .tc main_v13)
    = FirstLayer.hidden (aggregate64 (m ((c : Thread nD τ).loc main_arg0)) (m ((c : Thread nD τ).loc main_arg1)) (m ((c : Thread nD τ).loc main_arg2)) (m ((c : Thread nD τ).loc main_arg3))) (m ((c : Thread nD τ).loc main_arg4)) := by
  refine (W2_arr m ρ c 2).trans ?_
  refine (FirstLayer.final0 (V1 m ρ) c).trans ?_
  show FirstLayer.hidden (W1 m ρ c (Proc.devRef .tc main_v12)) (W1 m ρ c (Proc.devRef .tc main_arg4)) = _
  rw [W1_features, W1_arg4]

/-! ## The second call's entry contents -/

theorem W3_arg5 (c : Dev nD) : W3 m ρ c (Proc.devRef .tc main_arg5) = m ((c : Thread nD τ).loc main_arg5) := by
  show StableHlo.after hostOps1 (W2 m ρ c) (Proc.devRef .tc main_arg5) = _
  dsimp only [hostOps1]; after_results_simp
  exact W2_arg5 m ρ c

/-- The second call's feature window holds the aggregate of the hidden layer. -/
theorem W3_features (c : Dev nD) : W3 m ρ c (Proc.devRef .tc main_v26)
    = aggregate128 (m ((c : Thread nD τ).loc main_arg0)) (m ((c : Thread nD τ).loc main_arg1)) (m ((c : Thread nD τ).loc main_arg2))
        (FirstLayer.hidden (aggregate64 (m ((c : Thread nD τ).loc main_arg0)) (m ((c : Thread nD τ).loc main_arg1)) (m ((c : Thread nD τ).loc main_arg2)) (m ((c : Thread nD τ).loc main_arg3))) (m ((c : Thread nD τ).loc main_arg4))) := by
  show StableHlo.after hostOps1 (W2 m ρ c) (Proc.devRef .tc main_v26) = _
  dsimp only [hostOps1]; after_results_simp
  rw [W2_arg0, W2_arg1, W2_arg2, W2_hidden]
  rfl

/-! ## The result -/

/-- The last boundary's contents at the result array: the whole network of the launch contents of the arguments. -/
theorem result_eq (c : Dev nD) : W4 m ρ c (Proc.devRef .tc main_v27)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 2).trans ?_
  refine (SecondLayer.final1 (V3 m ρ) c).trans ?_
  show SecondLayer.logits (W3 m ρ c (Proc.devRef .tc main_v26)) (W3 m ρ c (Proc.devRef .tc main_arg5)) = _
  rw [W3_features, W3_arg5]
  rfl

/-- Every weakly fair execution of the kernel program terminates without a fault, with the result array at the whole network
    of the arguments and the arguments unchanged. -/
theorem run : θ_run defs (onTc (τ := τ) (main (F := Ideal))) ⟨m, fun _ => 0, ρ⟩ (fun r => ∀ c : Dev nD,
      r.2.mem ((c.tc : Thread nD τ).loc main_v27)
        = network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Whole

end
-- ==== Proof.Bridge.lean ====
/-
  The reference computes the kernel program's network.

  The reference's run ends with its result at one composed term of its arguments: aggregate the node features over the edges,
  multiply by the first weights and clip at zero, aggregate again, multiply by the second weights. The aggregations are the
  same host operations, with the same dimension numbers, as the kernel program's own, and a product with dimension numbers
  "contract the left operand's columns with the right operand's rows" is the plain matrix product; the zero the reference clips
  against is a broadcast constant where the kernel program splats a scalar, the same array. So the reference's term and the
  kernel program's network are one function of the six arguments; nothing is computed to see it.
-/
import proofs.«138890_j11450382811785_1_alg».proof.Proof.Gen.ReferenceIdeal.Run
import proofs.«138890_j11450382811785_1_alg».proof.Proof.KernelValue

noncomputable section

namespace Cert.Bridge

open Idealize.ShloMosaic Cert.ReferenceIdeal Cert.ReferenceIdeal.Gen

/-- The reference's composed term, over any six arguments, is the kernel program's network of them. -/
theorem reference_eq (a0 a1 : IVec S1280000 32) (a2 : FVec Ideal S1280000 .f32) (a3 : FVec Ideal S80000x64 .f32)
    (a4 : FVec Ideal S64x128 .f32) (a5 : FVec Ideal S128x40 .f32) :
    (Host.dotGeneral dot_S80000x128_S128x40_S80000x40_1_0_0_1_n_n none (Host.scatterAdd scatter_S80000x128_S1280000x1_S1280000x128_1_0_0_1 (broadcastInDim S80000x128 ![] bcast_S_S80000x128 (constant (F := Ideal) S_ .f32 0x00000000#32)) (broadcastInDim S1280000x1 ![0] bcast_S1280000_S1280000x1_0 a0) (mulf (Host.gather gather_S80000x128_S1280000x1_S1280000x128_1_0_n_n_0_1_1128 (maximumf (Host.dotGeneral dot_S80000x64_S64x128_S80000x128_1_0_0_1_n_n none (Host.scatterAdd scatter_S80000x64_S1280000x1_S1280000x64_1_0_0_1 (broadcastInDim S80000x64 ![] bcast_S_S80000x64 (constant (F := Ideal) S_ .f32 0x00000000#32)) (broadcastInDim S1280000x1 ![0] bcast_S1280000_S1280000x1_0 a0) (mulf (Host.gather gather_S80000x64_S1280000x1_S1280000x64_1_0_n_n_0_1_164 a3 (broadcastInDim S1280000x1 ![0] bcast_S1280000_S1280000x1_0 (select (cmpi .slt a1 (broadcastInDim S1280000 ![] bcast_S_S1280000 (constantI S_ 32 0#32))) (addi a1 (broadcastInDim S1280000 ![] bcast_S_S1280000 (constantI S_ 32 80000#32))) a1))) (broadcastInDim S1280000x64 ![0, 1] bcast_S1280000x1_S1280000x64_0_1 (broadcastInDim S1280000x1 ![0] bcast_S1280000_S1280000x1_0 a2)))) a4) (broadcastInDim S80000x128 ![] bcast_S_S80000x128 (constant (F := Ideal) S_ .f32 0x00000000#32))) (broadcastInDim S1280000x1 ![0] bcast_S1280000_S1280000x1_0 (select (cmpi .slt a1 (broadcastInDim S1280000 ![] bcast_S_S1280000 (constantI S_ 32 0#32))) (addi a1 (broadcastInDim S1280000 ![] bcast_S_S1280000 (constantI S_ 32 80000#32))) a1))) (broadcastInDim S1280000x128 ![0, 1] bcast_S1280000x1_S1280000x128_0_1 (broadcastInDim S1280000x1 ![0] bcast_S1280000_S1280000x1_0 a2)))) a5 : FVec Ideal S80000x40 .f32)
      = Cert.KernelIdeal.Whole.network a0 a1 a2 a3 a4 a5 := by
  unfold Cert.KernelIdeal.Whole.network Cert.KernelIdeal.Whole.aggregate128 Cert.KernelIdeal.Whole.aggregate64
    Cert.KernelIdeal.Whole.wrap Cert.KernelIdeal.SecondLayer.logits Cert.KernelIdeal.FirstLayer.hidden
  rfl

end Cert.Bridge

end
-- ==== Proof.lean ====
/-
  Two rounds of message passing on a graph with 80000 nodes and 1280000 weighted edges, ending in class scores per node.

  Both programs compute, from the edges (start, end, weight), node features x (80000 x 64) and two weight matrices W1 (64 x 128)
  and W2 (128 x 40):  A (clip (A x W1)) W2,  where A y sums into each node's row, over the edges starting at it, the row of y at
  the edge's end scaled by the edge's weight, and clip is the entrywise maximum with zero.

  The reference forms the two matrix products whole. The kernel program forms each of them in a pipelined call that walks the
  80000 rows in 20 bands of 4000, casting the band and the weights to a narrower float format and accumulating into zero. Over
  the extended reals the cast changes no value and the zero accumulator contributes nothing, and an entry of a matrix product
  reads one row of the left operand, so band t's product is band t of the whole product; the bands tile the result. The two
  aggregations are host operations, the same in both programs, and are carried as they stand. Nothing in this uses that the
  inputs are finite: no sum is rearranged and no factor moved.

  The kernel program runs without a fault and leaves its arguments alone by its generated frame; the reference by its generated
  run; the kernel program's idealisation rewrites nothing, so there is nothing to preserve.
-/
import proofs.«138890_j11450382811785_1_alg».proof.Defs
import proofs.«138890_j11450382811785_1_alg».proof.Proof.Gen.Kernel
import proofs.«138890_j11450382811785_1_alg».proof.Proof.Gen.Kernel.Skeleton
import proofs.«138890_j11450382811785_1_alg».proof.Proof.Gen.Kernel.Launch
import proofs.«138890_j11450382811785_1_alg».proof.Proof.Gen.Kernel.Points
import proofs.«138890_j11450382811785_1_alg».proof.Proof.Gen.Kernel.Frame
import proofs.«138890_j11450382811785_1_alg».proof.Proof.Gen.KernelIdeal
import proofs.«138890_j11450382811785_1_alg».proof.Proof.Gen.KernelIdeal.Skeleton
import proofs.«138890_j11450382811785_1_alg».proof.Proof.Gen.KernelIdeal.Launch
import proofs.«138890_j11450382811785_1_alg».proof.Proof.Gen.KernelIdeal.Points
import proofs.«138890_j11450382811785_1_alg».proof.Proof.Gen.KernelIdeal.Frame
import proofs.«138890_j11450382811785_1_alg».proof.Proof.Gen.ReferenceIdeal
import proofs.«138890_j11450382811785_1_alg».proof.Proof.Gen.Pre_finite_inputs
import proofs.«138890_j11450382811785_1_alg».proof.Proof.Gen.ReferenceIdeal.Run
import proofs.«138890_j11450382811785_1_alg».proof.Proof.KernelValue
import proofs.«138890_j11450382811785_1_alg».proof.Proof.Bridge
import Idealize.ShloMosaic.Adequacy
import Idealize.ShloMosaic.Init

noncomputable section

namespace Cert.Proof

open Idealize.ShloMosaic Idealize.SL.Sem

/-- The kernel program, read at machine words, terminates without a fault and leaves its arguments as launched. -/
theorem frame_kernel : @Cert.frame_Kernel Cert.Kernel.Gen.facts Cert.Pre_finite_inputs.Gen.facts :=
  fun m ρ _ => Cert.Kernel.Gen.frame m ρ

/-- The same of the kernel program read over the extended reals. -/
theorem frame_kernelIdeal : @Cert.frame_KernelIdeal Cert.KernelIdeal.Gen.facts Cert.Pre_finite_inputs.Gen.facts :=
  fun m ρ _ => Cert.KernelIdeal.Gen.frame m ρ

/-- The reference terminates without a fault and leaves its arguments as launched: its run, the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the six arguments both programs end with the same result: the kernel program's result array
    holds the network of its arguments, and the reference's composed term is that network of its own, equal, arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact Cert.Bridge.reference_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
